-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S128x16 .f32) (main_arg7 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x16 .f32) (main_arg6 : FVec F S128x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S10000x128 : Shape := ⟨2, ![10000, 128]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S128x16, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S100000x128, .f32⟩
  | .hbm, ⟨36, _⟩ => ⟨S640000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x16, .f32⟩
  | .hbm, ⟨58, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x16, .f32⟩
  | .local _ .vmem, ⟨14, _⟩ => ⟨S128x16, .f32⟩
  | .local _ .vmem, ⟨15, _⟩ => ⟨S1x16, .f32⟩
  | .local _ .vmem, ⟨16, _⟩ => ⟨S10000x16, .f32⟩
  | .local _ .vmem, ⟨17, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S10000x128_S128x128_S10000x128_1_0_0_1_n_n_wf : DotDims.WF S10000x128 S128x128 S10000x128 [1] [0] [0] [1] [] []
  dot_S10000x128_S128x16_S10000x16_1_0_0_1_n_n_wf : DotDims.WF S10000x128 S128x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x16.size a ≤ S100000x16.size a
  hwx1_5 : ∀ i : grid1.Coords, EltTy.bits .f32 = 32 ∨ (Rect.block (s := S100000x16) S10000x16.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S128x16, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S100000x128, .f32⟩
  | .hbm, ⟨57, _⟩ => ⟨S640000x1, .i32⟩
  | .hbm, ⟨58, _⟩ => ⟨S100000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S100000, .f32⟩
  | .hbm, ⟨63, _⟩ => ⟨S640000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x16, .f32⟩
  | .hbm, ⟨72, _⟩ => ⟨S100000x16, .f32⟩
  | .hbm, ⟨73, _⟩ => ⟨S100000x16, .f32⟩
  | .hbm, ⟨74, _⟩ => ⟨S1x16, .f32⟩
  | .hbm, ⟨75, _⟩ => ⟨S100000x16, .f32⟩
  | .hbm, ⟨76, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelHost.lean ====
/-
  The host side of the program: what the arrays hold when each region is entered, as functions of the arguments.

  The edge list `e` gives each edge a source row and a destination row. Negative source numbers are wrapped by adding
  the node count (the host's index normalisation); `neighbourSum feat e` gathers `feat`'s source rows and adds each into
  its destination row of a zero array; `degree e` counts, per node, the edges arriving there (a sum of ones into a zero
  vector) and is raised to at least one; `neighbourMean feat e` scales row `n` of the sum by `1 / degree n`.

  Before the first region the host computes `neighbourMean x e` and lays the first bias out as one row; between the
  regions it computes `neighbourMean h e` of the first region's output `h` — re-reading the edge rows and the
  reciprocal degrees it made before the first region, which the region leaves untouched — and lays the second bias out
  as one row. Every other array a region reads is an argument as launched.
-/
import proofs.«178804_j84885733638151_1_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- Row 0 of the edge list: each edge's source node. -/
def srcRow (e : (⟨S2x640000, .i32⟩ : BufTy).Contents (Elt F)) : (⟨S640000, .i32⟩ : BufTy).Contents (Elt F) :=
  shapeCast S640000 (extractStridedSlice S1x640000 ![0, 0] e slices_S2x640000_S1x640000_0_0) shapeCasts_S1x640000_S640000

/-- Row 1 of the edge list: each edge's destination node. -/
def dstRow (e : (⟨S2x640000, .i32⟩ : BufTy).Contents (Elt F)) : (⟨S640000, .i32⟩ : BufTy).Contents (Elt F) :=
  shapeCast S640000 (extractStridedSlice S1x640000 ![1, 0] e slices_S2x640000_S1x640000_1_0) shapeCasts_S1x640000_S640000

/-- The source numbers with a negative one wrapped by the node count, as a column of gather indices. -/
def srcIdx (e : (⟨S2x640000, .i32⟩ : BufTy).Contents (Elt F)) : (⟨S640000x1, .i32⟩ : BufTy).Contents (Elt F) :=
  broadcastInDim S640000x1 ![0] bcast_S640000_S640000x1_0
    (select (cmpi .slt (srcRow (F := F) e) (broadcastInDim S640000 ![] bcast_S_S640000 (constantI S_ 32 0#32)))
      (addi (srcRow (F := F) e) (broadcastInDim S640000 ![] bcast_S_S640000 (constantI S_ 32 100000#32)))
      (srcRow (F := F) e))

/-- The destination numbers as a column of scatter indices. -/
def dstIdx (e : (⟨S2x640000, .i32⟩ : BufTy).Contents (Elt F)) : (⟨S640000x1, .i32⟩ : BufTy).Contents (Elt F) :=
  broadcastInDim S640000x1 ![0] bcast_S640000_S640000x1_0 (dstRow (F := F) e)

/-- Per node, the number of edges arriving there: ones added into a zero vector. -/
def rawDegree (e : (⟨S2x640000, .i32⟩ : BufTy).Contents (Elt F)) : (⟨S100000, .f32⟩ : BufTy).Contents (Elt F) :=
  Host.scatterAdd scatter_S100000_S640000x1_S640000_n_0_0_1
    (broadcastInDim S100000 ![] bcast_S_S100000 (constant (F := F) S_ .f32 0x00000000#32)) (dstIdx (F := F) e)
    (broadcastInDim S640000 ![] bcast_S_S640000 (constant (F := F) S_ .f32 0x3F800000#32))

/-- That number raised to at least one. -/
def degree (e : (⟨S2x640000, .i32⟩ : BufTy).Contents (Elt F)) : (⟨S100000, .f32⟩ : BufTy).Contents (Elt F) :=
  maximumf (rawDegree (F := F) e) (broadcastInDim S100000 ![] bcast_S_S100000 (constant (F := F) S_ .f32 0x3F800000#32))

/-- Its reciprocal, as a column. -/
def invDegree (e : (⟨S2x640000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant (F := F) S_ .f32 0x3F800000#32)) (degree (F := F) e))

/-- Each destination row's sum of the source rows of `feat` over the edges arriving there. -/
def neighbourSum (feat : (⟨S100000x128, .f32⟩ : BufTy).Contents (Elt F)) (e : (⟨S2x640000, .i32⟩ : BufTy).Contents (Elt F)) : (⟨S100000x128, .f32⟩ : BufTy).Contents (Elt F) :=
  Host.scatterAdd scatter_S100000x128_S640000x1_S640000x128_1_0_0_1
    (broadcastInDim S100000x128 ![] bcast_S_S100000x128 (constant (F := F) S_ .f32 0x00000000#32)) (dstIdx (F := F) e)
    (Host.gather gather_S100000x128_S640000x1_S640000x128_1_0_n_n_0_1_1128 feat (srcIdx (F := F) e))

/-- The mean over arriving edges, as the sum scaled by the reciprocal degree. -/
def neighbourMean (feat : (⟨S100000x128, .f32⟩ : BufTy).Contents (Elt F)) (e : (⟨S2x640000, .i32⟩ : BufTy).Contents (Elt F)) : (⟨S100000x128, .f32⟩ : BufTy).Contents (Elt F) :=
  mulf (neighbourSum (F := F) feat e)
    (broadcastInDim S100000x128 ![0, 1] bcast_S100000x1_S100000x128_0_1 (invDegree (F := F) e))

variable (m : (ℓ : Loc nD τ sig) → Buf (Elt F) ℓ) (ρ : Dev nD → PrngReg)

/-! ## Region 0's entry -/

theorem entry0_mean (c : Dev nD) :
    V1 m ρ c main_v24 = neighbourMean (F := F) (m ((c : Thread nD τ).loc main_arg0)) (m ((c : Thread nD τ).loc main_arg1)) := by
  show StableHlo.after hostOps0 (W0 m ρ c) (Proc.devRef .tc main_v24) = _
  after_results_simp
  rfl

theorem entry0_bias (c : Dev nD) :
    V1 m ρ c main_v25 = shapeCast S1x128 (m ((c : Thread nD τ).loc main_arg4)) shapeCasts_S128_S1x128 := by
  show StableHlo.after hostOps0 (W0 m ρ c) (Proc.devRef .tc main_v25) = _
  after_results_simp
  rfl

theorem entry0_arg0 (c : Dev nD) : V1 m ρ c main_arg0 = m ((c : Thread nD τ).loc main_arg0) := by
  show StableHlo.after hostOps0 (W0 m ρ c) (Proc.devRef .tc main_arg0) = _
  after_results_simp <;> rfl

theorem entry0_arg2 (c : Dev nD) : V1 m ρ c main_arg2 = m ((c : Thread nD τ).loc main_arg2) := by
  show StableHlo.after hostOps0 (W0 m ρ c) (Proc.devRef .tc main_arg2) = _
  after_results_simp <;> rfl

theorem entry0_arg3 (c : Dev nD) : V1 m ρ c main_arg3 = m ((c : Thread nD τ).loc main_arg3) := by
  show StableHlo.after hostOps0 (W0 m ρ c) (Proc.devRef .tc main_arg3) = _
  after_results_simp <;> rfl

/-! ## What region 0 leaves of the host's earlier results: untouched -/

theorem kept_srcRow (c : Dev nD) :
    W2 m ρ c (Proc.devRef .tc main_v1) = srcRow (F := F) (m ((c : Thread nD τ).loc main_arg1)) := by
  rw [W2_of_ne m ρ c main_v1 (by decide)]
  show StableHlo.after hostOps0 (W0 m ρ c) (Proc.devRef .tc main_v1) = _
  after_results_simp
  rfl

theorem kept_dstRow (c : Dev nD) :
    W2 m ρ c (Proc.devRef .tc main_v3) = dstRow (F := F) (m ((c : Thread nD τ).loc main_arg1)) := by
  rw [W2_of_ne m ρ c main_v3 (by decide)]
  show StableHlo.after hostOps0 (W0 m ρ c) (Proc.devRef .tc main_v3) = _
  after_results_simp
  rfl

theorem kept_invDegree (c : Dev nD) :
    W2 m ρ c (Proc.devRef .tc main_v12) = invDegree (F := F) (m ((c : Thread nD τ).loc main_arg1)) := by
  rw [W2_of_ne m ρ c main_v12 (by decide)]
  show StableHlo.after hostOps0 (W0 m ρ c) (Proc.devRef .tc main_v12) = _
  after_results_simp
  rfl

theorem kept_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp <;> rfl

theorem kept_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

theorem kept_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

/-! ## Region 1's entry -/

theorem entry1_mean (c : Dev nD) :
    V3 m ρ c main_v38 = neighbourMean (F := F) (W2 m ρ c (Proc.devRef .tc main_v26)) (m ((c : Thread nD τ).loc main_arg1)) := by
  show StableHlo.after hostOps1 (W2 m ρ c) (Proc.devRef .tc main_v38) = _
  after_results_simp
  rw [kept_srcRow, kept_dstRow, kept_invDegree]
  rfl

theorem entry1_hidden (c : Dev nD) : V3 m ρ c main_v26 = W2 m ρ c (Proc.devRef .tc main_v26) := by
  show StableHlo.after hostOps1 (W2 m ρ c) (Proc.devRef .tc main_v26) = _
  after_results_simp <;> rfl

theorem entry1_bias (c : Dev nD) :
    V3 m ρ c main_v39 = shapeCast S1x16 (m ((c : Thread nD τ).loc main_arg7)) shapeCasts_S16_S1x16 := by
  show StableHlo.after hostOps1 (W2 m ρ c) (Proc.devRef .tc main_v39) = _
  after_results_simp
  rw [kept_arg7]
  rfl

theorem entry1_arg5 (c : Dev nD) : V3 m ρ c main_arg5 = m ((c : Thread nD τ).loc main_arg5) := by
  show StableHlo.after hostOps1 (W2 m ρ c) (Proc.devRef .tc main_arg5) = _
  after_results_simp
  exact kept_arg5 m ρ c

theorem entry1_arg6 (c : Dev nD) : V3 m ρ c main_arg6 = m ((c : Thread nD τ).loc main_arg6) := by
  show StableHlo.after hostOps1 (W2 m ρ c) (Proc.devRef .tc main_arg6) = _
  after_results_simp
  exact kept_arg6 m ρ c

end Cert.KernelIdeal.HostSide

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Spec.lean ====
/-
  The mathematics of one graph-convolution layer, stated once for all sizes, on the extended reals.

  A layer maps an aggregated feature array `a` and the node features `x` (both `M × K`) to
  `a · wl + x · wr + b`: entry `(p, j)` is `(∑ₖ a(p,k)·wl(k,j) + ∑ₖ x(p,k)·wr(k,j)) + b(0,j)`, the bias carried as a
  one-row array. Two spellings of that array are shown to be this one function: the vector unit's (two products
  accumulated into zero, narrowed operands, the bias row broadcast down the rows) and the host's (two plain matrix
  products and a bias vector broadcast in two steps). Narrowing a float format is the identity on exact values, the
  products are finite sums over the contracted axis, and only associativity-free rewriting is needed: the two
  spellings add the same three terms in the same order.

  The aggregation's mean comes in two spellings as well: the sum scaled by the reciprocal `1 / max(d, 1)` and the sum
  divided by `max(d, 1)`. On the extended reals a quotient by a nonzero `y` is the product with `y⁻¹`, and
  `max(d, 1) ≥ 1` is never zero, so `s · (1 / y) = s · (1 · y⁻¹) = s · y⁻¹ = s / y` for every `s`, finite or not.
-/
import Idealize.ShloMosaic.PureOps.Ideal.Laws
import Idealize.ShloMosaic.Lib.ValueIdx
import Idealize.ShloMosaic.Lib.Pipeline.Value
import proofs.«178804_j84885733638151_1_alg».proof.Proof.LibPlainProduct

noncomputable section

open scoped BigOperators

namespace Cert.Sage

open Idealize.ShloMosaic Idealize.ShloMosaic.ValueIdx

/-- The pattern of `1.0` denotes the real number one. -/
theorem ofBits_one : Ideal.ofBits .f32 0x3F800000#32 = 1 := by
  simp [Ideal.ofBits, Ideal.ieee, -EReal.coe_mul]; norm_num

variable {M K N : ℕ}

/-- `a · wl + x · wr + b` at entry `i = (p, j)`, the bias a one-row array. -/
def affine (a x : FVec Ideal ⟨2, ![M, K]⟩ .f32) (wl wr : FVec Ideal ⟨2, ![K, N]⟩ .f32)
    (b : FVec Ideal ⟨2, ![1, N]⟩ .f32) : FVec Ideal ⟨2, ![M, N]⟩ .f32 :=
  fun i => ((∑ k : Fin K, a (ix2 (i 0) k) * wl (ix2 k (i 1))) + ∑ k : Fin K, x (ix2 (i 0) k) * wr (ix2 k (i 1)))
    + b (ix2 (0 : Fin 1) (i 1))

/-- The positive part, against the pattern of `+0.0` kept as a pattern. -/
def positivePart {s : Shape} (v : FVec Ideal s .f32) : FVec Ideal s .f32 :=
  fun i => max (v i) (Ideal.ofBits .f32 0x00000000#32)

/-- The one-row bias broadcast down `M` rows reads, at `(p, j)`, the row's entry `j`. -/
theorem bias_rows_apply (b : FVec Ideal ⟨2, ![1, N]⟩ .f32) (hb : (⟨2, ![1, N]⟩ : Shape).Broadcasts ⟨2, ![M, N]⟩)
    (i : (⟨2, ![M, N]⟩ : Shape).Idx) :
    broadcastTo ⟨2, ![M, N]⟩ b hb i = b (ix2 (0 : Fin 1) (i 1)) := by
  refine broadcastTo_apply b hb i _ fun a => ?_
  match a with
  | ⟨0, _⟩ => show (0 : ℕ) = if (1 : ℕ) = 1 then 0 else _; rw [if_pos rfl]
  | ⟨1, _⟩ =>
    show (i 1).val = if N = 1 then 0 else (i 1).val
    split
    · rename_i h; have := (i 1).isLt; simp only [Matrix.cons_val_one, Matrix.cons_val_zero] at this; omega
    · rfl

/-- The vector unit's spelling of a layer's affine part is `affine`. -/
theorem unit_affine (a x : FVec Ideal ⟨2, ![M, K]⟩ .f32) (wl wr : FVec Ideal ⟨2, ![K, N]⟩ .f32)
    (b : FVec Ideal ⟨2, ![1, N]⟩ .f32) (hn : FTy.bits .bf16 < FTy.bits .f32)
    (hb : (⟨2, ![1, N]⟩ : Shape).Broadcasts ⟨2, ![M, N]⟩) :
    addf (addf (matmul (DotDims.plain M K N) none (truncf .bf16 a hn) (truncf .bf16 wl hn) (constant ⟨2, ![M, N]⟩ .f32 0x00000000#32))
        (matmul (DotDims.plain M K N) none (truncf .bf16 x hn) (truncf .bf16 wr hn) (constant ⟨2, ![M, N]⟩ .f32 0x00000000#32)))
      (broadcastTo ⟨2, ![M, N]⟩ b hb) = affine a x wl wr b := by
  funext i
  obtain ⟨p, j, rfl⟩ : ∃ (p : Fin M) (j : Fin N), i = ix2 p j := ⟨i 0, i 1, eq_ix2 i⟩
  rw [addf_apply, addf_apply, bias_rows_apply]
  show FloatOps.matmul _ _ _ _ _ _ + FloatOps.matmul _ _ _ _ _ _ + _ = _
  rw [LibPlainProduct.matmul_zero_plain_apply, LibPlainProduct.matmul_zero_plain_apply]
  rfl

/-- The host's spelling: two plain products, and the bias vector broadcast to one row, then down the rows. -/
theorem host_affine (a x : FVec Ideal ⟨2, ![M, K]⟩ .f32) (wl wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (hs : (⟨1, ![N]⟩ : Shape).ShapeCasts ⟨2, ![1, N]⟩) :
    addf (addf (Host.dotGeneral (DotDims.plain M K N) none a wl) (Host.dotGeneral (DotDims.plain M K N) none x wr))
      (broadcastInDim ⟨2, ![M, N]⟩ ![0, 1] h2 (broadcastInDim ⟨2, ![1, N]⟩ ![1] h1 b))
      = affine a x wl wr (shapeCast ⟨2, ![1, N]⟩ b hs) := by
  funext i
  obtain ⟨p, j, rfl⟩ : ∃ (p : Fin M) (j : Fin N), i = ix2 p j := ⟨i 0, i 1, eq_ix2 i⟩
  have e2 : broadcastInDim ⟨2, ![M, N]⟩ ![0, 1] h2 (broadcastInDim ⟨2, ![1, N]⟩ ![1] h1 b) (ix2 p j)
      = broadcastInDim ⟨2, ![1, N]⟩ ![1] h1 b (ix2 (0 : Fin 1) j) :=
    broadcastInDim_apply _ h2 _ _ _ fun ax => by
      match ax with
      | ⟨0, _⟩ => show (0 : ℕ) = if (1 : ℕ) = 1 then 0 else _; rw [if_pos rfl]
      | ⟨1, _⟩ =>
        show j.val = if N = 1 then 0 else j.val
        split
        · have := j.isLt; omega
        · rfl
  have e1 : broadcastInDim ⟨2, ![1, N]⟩ ![1] h1 b (ix2 (0 : Fin 1) j) = b (ix1 j) :=
    broadcastInDim_apply _ h1 _ _ _ fun ax => by
      match ax with
      | ⟨0, _⟩ =>
        show j.val = if N = 1 then 0 else j.val
        split
        · have := j.isLt; omega
        · rfl
  have e3 : shapeCast ⟨2, ![1, N]⟩ b hs (ix2 (0 : Fin 1) j) = b (ix1 j) :=
    (shapeCast_addUnit_apply ![N] b hs (ix2 (0 : Fin 1) j)).trans (congrArg b (funext fun ax => by
      match ax with
      | ⟨0, _⟩ => rfl))
  rw [addf_apply, addf_apply, e2, e1]
  unfold Host.dotGeneral
  rw [LibPlainProduct.dotGeneral_plain_apply, LibPlainProduct.dotGeneral_plain_apply]
  show _ = (_ + _) + shapeCast ⟨2, ![1, N]⟩ b hs (ix2 (0 : Fin 1) j)
  rw [e3]
  rfl

/-- Scaling by the reciprocal of a number that is at least one is dividing by it, on every extended real. -/
theorem scale_by_reciprocal (s d : EReal) :
    s * Ideal.div (Ideal.ofBits .f32 0x3F800000#32) (max d (Ideal.ofBits .f32 0x3F800000#32))
      = Ideal.div s (max d (Ideal.ofBits .f32 0x3F800000#32)) := by
  rw [ofBits_one]
  have hne : max d 1 ≠ 0 := fun h => by
    have h1 : (1 : EReal) ≤ max d 1 := le_max_right _ _
    rw [h] at h1
    exact absurd h1 (by norm_num)
  unfold Ideal.div
  rw [if_neg hne, if_neg hne, one_mul]

end Cert.Sage

end
-- ==== Proof.Region0.lean ====
/-
  Region 0 of the program, read as a value: the array its output window leaves is one whole-array function of the
  arrays the region finds.

  The grid has ten points; point `t` works on rows `10000·t … 10000·t + 9999` of the two row-blocked operands and of
  the output, and on the whole of the two weight matrices and of the bias row (their blocks sit at index `(0, 0)` at
  every point). The body's one store is the positive part of `a·wl + x·wr + b` of the blocks it loaded, so what point `t` writes
  back is rows `10000·t …` of the same function of the whole arrays: row `p` of a block is row `10000·t + p` of the
  array, and a product's entry depends on that one row only. The ten blocks tile the array's rows, so the array ends
  holding that function everywhere.
-/
import proofs.«178804_j84885733638151_1_alg».proof.Proof.Gen.KernelIdeal.Frame
import proofs.«178804_j84885733638151_1_alg».proof.Proof.Spec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- What the arrays hold when the region is entered: a parameter of everything below.
variable (V : (c : Dev nD) → (b : Ref sig .tc) → Buf (Elt Ideal) ((c : Thread nD τ).loc b))

theorem offsets_zero : (![0, 0] : Fin 2 → Nat) = fun _ => 0 := funext fun a => by fin_cases a <;> rfl

/-- The printed product record is the plain `10000 × 128` by `128 × 128` one. -/
theorem dot_plain : dot_S10000x128_S128x128_S10000x128_1_0_0_1_n_n = DotDims.plain 10000 128 128 := rfl

/-- The layer as a function of whole arrays, for any number of rows. -/
def layer {M : ℕ} (a x : FVec Ideal ⟨2, ![M, 128]⟩ .f32) (wl wr : FVec Ideal ⟨2, ![128, 128]⟩ .f32)
    (b : FVec Ideal ⟨2, ![1, 128]⟩ .f32) : FVec Ideal ⟨2, ![M, 128]⟩ .f32 :=
  Sage.positivePart (Sage.affine a x wl wr b)

/-- The body's stored value is the layer of the blocks it loaded. -/
theorem payload_eq (x0 x1 : Vec Ideal S10000x128 .f32) (x2 x3 : Vec Ideal S128x128 .f32) (x4 : Vec Ideal S1x128 .f32) :
    k0_pay1 x0 x1 x2 x3 x4 = layer (M := 10000) x0 x1 x2 x3 x4 := by
  unfold k0_pay1 layer
  dsimp only
  rw [shapeCast_self, shapeCast_self, dot_plain, Sage.unit_affine]
  rfl

/-- The printed index maps over the grid: the row-blocked windows move with the output's row block, every other
    block index is zero, and point `t`'s row block is block `t`. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem index_onto : ∀ q : Fin 10, ∃ t : Fin cfg0.N, win0_5.index t = ![q.val, 0] :=
  (by decide +kernel : ∀ q : Fin 10, ∃ t : Fin grid0.N, win0_5.index t = ![q.val, 0])

/-- WHAT POINT `t` WRITES BACK is block `t` of the layer of the whole arrays as the region finds them. -/
theorem flushed_eq (c : Dev nD) (t : Fin cfg0.N) :
    (dat0 V c).flushed 5 t = ((cfg0.win 5).blk t).view.read (Elt Ideal)
      (layer (M := 100000) (V c main_v24) (V c main_arg0) (V c main_arg2) (V c main_arg3) (V c main_v25)) := by
  show (cfg0.win 5).cut (grid0.coords t) ((dat0 V c).after 5 t) = _
  rw [after0_5]
  unfold out0_5
  rw [View.canon_unit_zero offsets_zero]
  simp only [View.ld_unit_zero (S := S10000x128) offsets_zero, View.ld_unit_zero (S := S128x128) offsets_zero,
    View.ld_unit_zero (S := S1x128) offsets_zero]
  rw [payload_eq]
  obtain ⟨e00, e01, e10, e11, e20, e21, e30, e31, e40, e41, e51, e50⟩ := index_facts t
  funext j
  have hj0 : (j 0).val < 10000 := (j 0).isLt
  have hj1 : (j 1).val < 128 := (j 1).isLt
  -- each operand block, read where the output's rectangle says
  have ra : ∀ k : Fin 128, iblk0 V c 0 t (ix2 (j 0) k)
      = V c main_v24 (ix2 ((((cfg0.win 5).blk t).view.emb j) 0) k) := fun k => by
    show V c main_v24 (((cfg0.win 0).blk t).view.emb (ix2 (j 0) k)) = _
    refine congrArg _ (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 128 + 1 * k.val = k.val; omega
  have rx : ∀ k : Fin 128, iblk0 V c 1 t (ix2 (j 0) k)
      = V c main_arg0 (ix2 ((((cfg0.win 5).blk t).view.emb j) 0) k) := fun k => by
    show V c main_arg0 (((cfg0.win 1).blk t).view.emb (ix2 (j 0) k)) = _
    refine congrArg _ (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 128 + 1 * k.val = k.val; omega
  have rl : ∀ k : Fin 128, iblk0 V c 2 t (ix2 k (j 1))
      = V c main_arg2 (ix2 k ((((cfg0.win 5).blk t).view.emb j) 1)) := fun k => by
    show V c main_arg2 (((cfg0.win 2).blk t).view.emb (ix2 k (j 1))) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have rr : ∀ k : Fin 128, iblk0 V c 3 t (ix2 k (j 1))
      = V c main_arg3 (ix2 k ((((cfg0.win 5).blk t).view.emb j) 1)) := fun k => by
    show V c main_arg3 (((cfg0.win 3).blk t).view.emb (ix2 k (j 1))) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have rb : iblk0 V c 4 t (ix2 (0 : Fin 1) (j 1))
      = V c main_v25 (ix2 (0 : Fin 1) ((((cfg0.win 5).blk t).view.emb j) 1)) := by
    show V c main_v25 (((cfg0.win 4).blk t).view.emb (ix2 (0 : Fin 1) (j 1))) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  show layer (M := 10000) (iblk0 V c 0 t) (iblk0 V c 1 t) (iblk0 V c 2 t) (iblk0 V c 3 t) (iblk0 V c 4 t) j
    = layer (M := 100000) (V c main_v24) (V c main_arg0) (V c main_arg2) (V c main_arg3) (V c main_v25) (((cfg0.win 5).blk t).view.emb j)
  unfold layer Sage.positivePart Sage.affine
  simp only [ra, rx, rl, rr, rb]

/-- An index of the output array is in point `t`'s block iff each coordinate is in the block's range. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v26).slice (win0_5.rect t)).set ↔ _
  rw [View.set_slice_whole, Rect.mem_set_unit]
  exact Iff.rfl

/-- The ten row blocks tile the output array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- THE OUTPUT ARRAY after the region: the layer of the arrays the region finds. -/
theorem output_eq (c : Dev nD) :
    (dat0 V c).arrAt 5 cfg0.N
      = layer (M := 100000) (V c main_v24) (V c main_arg0) (V c main_arg2) (V c main_arg3) (V c main_v25) :=
  (dat0 V c).arrAt_eq_of_cover 5 _ (fun t _ => flushed_eq V c t) (cover)

end Cert.KernelIdeal.Region0

end
-- ==== Proof.Region1.lean ====
/-
  Region 1 of the program, read as a value: the array its output window leaves is one whole-array function of the
  arrays the region finds.

  The grid has ten points; point `t` works on rows `10000·t … 10000·t + 9999` of the two row-blocked operands and of
  the output, and on the whole of the two weight matrices and of the bias row (their blocks sit at index `(0, 0)` at
  every point). The body's one store is `a·wl + x·wr + b` of the blocks it loaded, so what point `t` writes
  back is rows `10000·t …` of the same function of the whole arrays: row `p` of a block is row `10000·t + p` of the
  array, and a product's entry depends on that one row only. The ten blocks tile the array's rows, so the array ends
  holding that function everywhere.
-/
import proofs.«178804_j84885733638151_1_alg».proof.Proof.Gen.KernelIdeal.Frame
import proofs.«178804_j84885733638151_1_alg».proof.Proof.Spec
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- What the arrays hold when the region is entered: a parameter of everything below.
variable (V : (c : Dev nD) → (b : Ref sig .tc) → Buf (Elt Ideal) ((c : Thread nD τ).loc b))

theorem offsets_zero : (![0, 0] : Fin 2 → Nat) = fun _ => 0 := funext fun a => by fin_cases a <;> rfl

/-- The printed product record is the plain `10000 × 128` by `128 × 16` one. -/
theorem dot_plain : dot_S10000x128_S128x16_S10000x16_1_0_0_1_n_n = DotDims.plain 10000 128 16 := rfl

/-- The layer as a function of whole arrays, for any number of rows. -/
def layer {M : ℕ} (a x : FVec Ideal ⟨2, ![M, 128]⟩ .f32) (wl wr : FVec Ideal ⟨2, ![128, 16]⟩ .f32)
    (b : FVec Ideal ⟨2, ![1, 16]⟩ .f32) : FVec Ideal ⟨2, ![M, 16]⟩ .f32 :=
  Sage.affine a x wl wr b

/-- The body's stored value is the layer of the blocks it loaded. -/
theorem payload_eq (x0 x1 : Vec Ideal S10000x128 .f32) (x2 x3 : Vec Ideal S128x16 .f32) (x4 : Vec Ideal S1x16 .f32) :
    k1_pay1 x0 x1 x2 x3 x4 = layer (M := 10000) x0 x1 x2 x3 x4 := by
  unfold k1_pay1 layer
  dsimp only
  rw [shapeCast_self, shapeCast_self, shapeCast_self, dot_plain, Sage.unit_affine]

/-- The printed index maps over the grid: the row-blocked windows move with the output's row block, every other
    block index is zero, and point `t`'s row block is block `t`. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem index_onto : ∀ q : Fin 10, ∃ t : Fin cfg1.N, win1_5.index t = ![q.val, 0] :=
  (by decide +kernel : ∀ q : Fin 10, ∃ t : Fin grid1.N, win1_5.index t = ![q.val, 0])

/-- WHAT POINT `t` WRITES BACK is block `t` of the layer of the whole arrays as the region finds them. -/
theorem flushed_eq (c : Dev nD) (t : Fin cfg1.N) :
    (dat1 V c).flushed 5 t = ((cfg1.win 5).blk t).view.read (Elt Ideal)
      (layer (M := 100000) (V c main_v38) (V c main_v26) (V c main_arg5) (V c main_arg6) (V c main_v39)) := by
  show (cfg1.win 5).cut (grid1.coords t) ((dat1 V c).after 5 t) = _
  rw [after1_5]
  unfold out1_5
  rw [View.canon_unit_zero offsets_zero]
  simp only [View.ld_unit_zero (S := S10000x128) offsets_zero, View.ld_unit_zero (S := S128x16) offsets_zero,
    View.ld_unit_zero (S := S1x16) offsets_zero]
  rw [payload_eq]
  obtain ⟨e00, e01, e10, e11, e20, e21, e30, e31, e40, e41, e51, e50⟩ := index_facts t
  funext j
  have hj0 : (j 0).val < 10000 := (j 0).isLt
  have hj1 : (j 1).val < 16 := (j 1).isLt
  -- each operand block, read where the output's rectangle says
  have ra : ∀ k : Fin 128, iblk1 V c 0 t (ix2 (j 0) k)
      = V c main_v38 (ix2 ((((cfg1.win 5).blk t).view.emb j) 0) k) := fun k => by
    show V c main_v38 (((cfg1.win 0).blk t).view.emb (ix2 (j 0) k)) = _
    refine congrArg _ (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 128 + 1 * k.val = k.val; omega
  have rx : ∀ k : Fin 128, iblk1 V c 1 t (ix2 (j 0) k)
      = V c main_v26 (ix2 ((((cfg1.win 5).blk t).view.emb j) 0) k) := fun k => by
    show V c main_v26 (((cfg1.win 1).blk t).view.emb (ix2 (j 0) k)) = _
    refine congrArg _ (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 128 + 1 * k.val = k.val; omega
  have rl : ∀ k : Fin 128, iblk1 V c 2 t (ix2 k (j 1))
      = V c main_arg5 (ix2 k ((((cfg1.win 5).blk t).view.emb j) 1)) := fun k => by
    show V c main_arg5 (((cfg1.win 2).blk t).view.emb (ix2 k (j 1))) = _
    refine congrArg _ (funext fun a => Fin.ext ?_)
    match a with
    | ⟨0, _⟩ => show win1_2.index t (0 : Fin 2) * 128 + 1 * k.val = k.val; omega
    | ⟨1, _⟩ => show win1_2.index t (1 : Fin 2) * 16 + 1 * (j 1).val = win1_5.index t (1 : Fin 2) * 16 + 1 * (j 1).val; omega
  have rr : ∀ k : Fin 128, iblk1 V c 3 t (ix2 k (j 1))
      = V c main_arg6 (ix2 k ((((cfg1.win 5).blk t).view.emb j) 1)) := fun k => by
    show V c main_arg6 (((cfg1.win 3).blk t).view.emb (ix2 k (j 1))) = _
    refine congrArg _ (funext fun a => Fin.ext ?_)
    match a with
    | ⟨0, _⟩ => show win1_3.index t (0 : Fin 2) * 128 + 1 * k.val = k.val; omega
    | ⟨1, _⟩ => show win1_3.index t (1 : Fin 2) * 16 + 1 * (j 1).val = win1_5.index t (1 : Fin 2) * 16 + 1 * (j 1).val; omega
  have rb : iblk1 V c 4 t (ix2 (0 : Fin 1) (j 1))
      = V c main_v39 (ix2 (0 : Fin 1) ((((cfg1.win 5).blk t).view.emb j) 1)) := by
    show V c main_v39 (((cfg1.win 4).blk t).view.emb (ix2 (0 : Fin 1) (j 1))) = _
    refine congrArg _ (funext fun a => Fin.ext ?_)
    match a with
    | ⟨0, _⟩ => show win1_4.index t (0 : Fin 2) * 1 + 1 * 0 = 0; omega
    | ⟨1, _⟩ => show win1_4.index t (1 : Fin 2) * 16 + 1 * (j 1).val = win1_5.index t (1 : Fin 2) * 16 + 1 * (j 1).val; omega
  show layer (M := 10000) (iblk1 V c 0 t) (iblk1 V c 1 t) (iblk1 V c 2 t) (iblk1 V c 3 t) (iblk1 V c 4 t) j
    = layer (M := 100000) (V c main_v38) (V c main_v26) (V c main_arg5) (V c main_arg6) (V c main_v39) (((cfg1.win 5).blk t).view.emb j)
  unfold layer Sage.affine
  simp only [ra, rx, rl, rr, rb]

/-- An index of the output array is in point `t`'s block iff each coordinate is in the block's range. -/
theorem mem_blk (t : Fin cfg1.N) (i : S100000x16.Idx) :
    i ∈ ((cfg1.win 5).blk t).view.set ↔ ∀ a : Fin 2, win1_5.index t a * S10000x16.size a ≤ (i a).val ∧ (i a).val < win1_5.index t a * S10000x16.size a + S10000x16.size a := by
  show i ∈ ((View.whole main_v40).slice (win1_5.rect t)).set ↔ _
  rw [View.set_slice_whole, Rect.mem_set_unit]
  exact Iff.rfl

/-- The ten row blocks tile the output array. -/
theorem cover (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  obtain ⟨t, ht⟩ := index_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 16 ≤ (i 1).val ∧ (i 1).val < win1_5.index t (1 : Fin 2) * 16 + 16; omega

/-- THE OUTPUT ARRAY after the region: the layer of the arrays the region finds. -/
theorem output_eq (c : Dev nD) :
    (dat1 V c).arrAt 5 cfg1.N
      = layer (M := 100000) (V c main_v38) (V c main_v26) (V c main_arg5) (V c main_arg6) (V c main_v39) :=
  (dat1 V c).arrAt_eq_of_cover 5 _ (fun t _ => flushed_eq V c t) (cover)

end Cert.KernelIdeal.Region1

end
-- ==== Proof.KernelValue.lean ====
/-
  The kernel program's result as one function of its arguments.

  The result buffer is region 1's output array: its layer of the neighbour mean of the hidden array `h`, of `h`
  itself, of the second layer's two weight matrices and of its bias laid out as a row. The hidden array is region 0's
  output array: its layer (positive part taken) of the neighbour mean of the features `x`, of `x`, of the first
  layer's weights and bias row. Each region's output is read off what its ten grid points write back; each array a
  region finds is read off the host operations before it.
-/
import proofs.«178804_j84885733638151_1_alg».proof.Proof.KernelHost
import proofs.«178804_j84885733638151_1_alg».proof.Proof.Region0
import proofs.«178804_j84885733638151_1_alg».proof.Proof.Region1

set_option maxRecDepth 16384

noncomputable section

namespace Cert.KernelIdeal.Composed

open Cert.KernelIdeal Cert.KernelIdeal.Gen Cert.KernelIdeal.HostSide
open Idealize.ShloMosaic Idealize.ShloMosaic.TcCoe Idealize.SL.Sem

variable (m : (ℓ : Loc nD τ sig) → Buf (Elt Ideal) ℓ) (ρ : Dev nD → PrngReg)

/-- The hidden array: the first layer of the features and their neighbour mean. -/
def hidden (c : Dev nD) : (⟨S100000x128, .f32⟩ : BufTy).Contents (Elt Ideal) :=
  Region0.layer (M := 100000)
    (neighbourMean (F := Ideal) (m ((c : Thread nD τ).loc main_arg0)) (m ((c : Thread nD τ).loc main_arg1)))
    (m ((c : Thread nD τ).loc main_arg0)) (m ((c : Thread nD τ).loc main_arg2)) (m ((c : Thread nD τ).loc main_arg3))
    (shapeCast S1x128 (m ((c : Thread nD τ).loc main_arg4)) Facts₀.shapeCasts_S128_S1x128)

/-- The result: the second layer of the hidden array and its neighbour mean. -/
def result (c : Dev nD) : (⟨S100000x16, .f32⟩ : BufTy).Contents (Elt Ideal) :=
  Region1.layer (M := 100000)
    (neighbourMean (F := Ideal) (hidden m c) (m ((c : Thread nD τ).loc main_arg1)))
    (hidden m c) (m ((c : Thread nD τ).loc main_arg5)) (m ((c : Thread nD τ).loc main_arg6))
    (shapeCast S1x16 (m ((c : Thread nD τ).loc main_arg7)) Facts₀.shapeCasts_S16_S1x16)

/-- What region 0 leaves in its output array is the hidden array. -/
theorem hidden_eq (c : Dev nD) : W2 m ρ c (Proc.devRef .tc main_v26) = hidden m c := by
  refine (W2_arr m ρ c 5).trans ?_
  rw [Region0.output_eq (V1 m ρ) c, entry0_mean, entry0_bias, entry0_arg0, entry0_arg2, entry0_arg3]
  rfl

/-- What the last segment boundary holds in the result buffer is the result. -/
theorem result_eq (c : Dev nD) : W4 m ρ c (Proc.devRef .tc main_v40) = result m c := by
  refine (W4_arr m ρ c 5).trans ?_
  rw [Region1.output_eq (V3 m ρ) c, entry1_mean, entry1_hidden, entry1_bias, entry1_arg5, entry1_arg6, hidden_eq]
  rfl

end Cert.KernelIdeal.Composed

end
-- ==== Proof.Bridge.lean ====
/-
  The reference's stages are the kernel-side functions.

  Stage by stage the reference computes, per layer: the neighbour sum of the features (gather the source rows, add
  each into its destination row), the degrees raised to at least one, the QUOTIENT of the sum by the degree, two
  matrix products, the bias, and after the first layer the positive part. The kernel's program computes the same
  neighbour sum and the same degrees with the same host operations, but scales the sum by the RECIPROCAL degree, and
  leaves the products, the bias and the positive part to its two regions.

  The two programs print their shape records separately; the records have the same entries, so they are equal, and
  the neighbour sums and the degrees are then the same terms. At entry `(n, k)` the reference's quotient is
  `s / max(d n, 1)` and the kernel's product is `s · (1 / max(d n, 1))`: equal for every extended real `s`, since
  `max(d n, 1)` is not zero. The products and the bias are the layer's affine part in the host's spelling, which is
  the same entrywise formula as the vector unit's.
-/
import proofs.«178804_j84885733638151_1_alg».proof.Proof.Gen.ReferenceIdeal.Read
import proofs.«178804_j84885733638151_1_alg».proof.Proof.KernelHost
import proofs.«178804_j84885733638151_1_alg».proof.Proof.Region0
import proofs.«178804_j84885733638151_1_alg».proof.Proof.Region1
import proofs.«178804_j84885733638151_1_alg».proof.Proof.Spec

set_option maxRecDepth 16384

noncomputable section

namespace Cert.Bridge

open Idealize.ShloMosaic Idealize.ShloMosaic.TcCoe Idealize.ShloMosaic.ValueIdx
open Cert.ReferenceIdeal.Read Cert.KernelIdeal.HostSide

/-! ## The two programs' shape records are the same records -/

theorem gather_eq : Cert.ReferenceIdeal.gather_S100000x128_S640000x1_S640000x128_1_0_n_n_0_1_1128 = Cert.KernelIdeal.gather_S100000x128_S640000x1_S640000x128_1_0_n_n_0_1_1128 := rfl
theorem scatter_rows_eq : Cert.ReferenceIdeal.scatter_S100000x128_S640000x1_S640000x128_1_0_0_1 = Cert.KernelIdeal.scatter_S100000x128_S640000x1_S640000x128_1_0_0_1 := rfl
theorem scatter_count_eq : Cert.ReferenceIdeal.scatter_S100000_S640000x1_S640000_n_0_0_1 = Cert.KernelIdeal.scatter_S100000_S640000x1_S640000_n_0_0_1 := rfl
theorem dot_hidden_plain : Cert.ReferenceIdeal.dot_S100000x128_S128x128_S100000x128_1_0_0_1_n_n = DotDims.plain 100000 128 128 := rfl
theorem dot_out_plain : Cert.ReferenceIdeal.dot_S100000x128_S128x16_S100000x16_1_0_0_1_n_n = DotDims.plain 100000 128 16 := rfl

/-! ## The neighbour sum and the degrees -/

/-- The reference's neighbour sum of any feature array is the kernel side's. -/
theorem sum_eq (feat : (⟨Cert.KernelIdeal.S100000x128, .f32⟩ : BufTy).Contents (Elt Ideal)) (e : (⟨Cert.KernelIdeal.S2x640000, .i32⟩ : BufTy).Contents (Elt Ideal)) :
    (Host.scatterAdd (F := Ideal) (φ := .f32) Cert.ReferenceIdeal.scatter_S100000x128_S640000x1_S640000x128_1_0_0_1 (val_main_v11 (F := Ideal)) (val_main_v12 (F := Ideal) e)
        (Host.gather Cert.ReferenceIdeal.gather_S100000x128_S640000x1_S640000x128_1_0_n_n_0_1_1128 feat (val_main_v9 (F := Ideal) e)) : (⟨Cert.KernelIdeal.S100000x128, .f32⟩ : BufTy).Contents (Elt Ideal))
      = neighbourSum (F := Ideal) feat e := by
  rw [gather_eq, scatter_rows_eq]
  rfl

/-- The reference's degrees, raised to at least one, are the kernel side's. -/
theorem degree_eq (e : (⟨Cert.KernelIdeal.S2x640000, .i32⟩ : BufTy).Contents (Elt Ideal)) : val_main_v19 (F := Ideal) e = degree (F := Ideal) e := by
  unfold val_main_v19 val_main_v17 degree rawDegree
  rw [scatter_count_eq]
  rfl

/-- A vector broadcast to a column and then along the rows reads, at `(n, k)`, its entry `n`. -/
theorem column_along_rows_apply (y : (⟨Cert.KernelIdeal.S100000, .f32⟩ : BufTy).Contents (Elt Ideal))
    (hc : Cert.KernelIdeal.S100000.BroadcastsInDim Cert.KernelIdeal.S100000x1 ![0])
    (hr : Cert.KernelIdeal.S100000x1.BroadcastsInDim Cert.KernelIdeal.S100000x128 ![0, 1]) (i : Cert.KernelIdeal.S100000x128.Idx) :
    broadcastInDim Cert.KernelIdeal.S100000x128 ![0, 1] hr (broadcastInDim Cert.KernelIdeal.S100000x1 ![0] hc y) i = y (ix1 (i 0)) := by
  rw [broadcastInDim_apply _ hr _ i (ix2 (i 0) (0 : Fin 1)) (fun a => by
      match a with
      | ⟨0, _⟩ => show (i 0).val = if (100000 : ℕ) = 1 then 0 else (i 0).val; rw [if_neg (by decide)]
      | ⟨1, _⟩ => show (0 : ℕ) = if (1 : ℕ) = 1 then 0 else (i 1).val; rw [if_pos rfl]),
    broadcastInDim_apply _ hc _ (ix2 (i 0) (0 : Fin 1)) (ix1 (i 0)) (fun a => by
      match a with
      | ⟨0, _⟩ => show (i 0).val = if (100000 : ℕ) = 1 then 0 else (i 0).val; rw [if_neg (by decide)])]

/-- The host's quotient, entry by entry. -/
theorem hostDivf_apply {s : Shape} (a b : FVec Ideal s .f32) (i : s.Idx) : Host.divf a b i = Ideal.div (a i) (b i) := rfl

/-- THE MEAN, in both spellings: the reference's quotient by the degree is the kernel side's product with the
    reciprocal degree, for any feature array. -/
theorem mean_eq (feat : (⟨Cert.KernelIdeal.S100000x128, .f32⟩ : BufTy).Contents (Elt Ideal)) (e : (⟨Cert.KernelIdeal.S2x640000, .i32⟩ : BufTy).Contents (Elt Ideal)) :
    (Host.divf (F := Ideal) (φ := .f32) (Host.scatterAdd (F := Ideal) (φ := .f32) Cert.ReferenceIdeal.scatter_S100000x128_S640000x1_S640000x128_1_0_0_1 (val_main_v11 (F := Ideal)) (val_main_v12 (F := Ideal) e)
        (Host.gather Cert.ReferenceIdeal.gather_S100000x128_S640000x1_S640000x128_1_0_n_n_0_1_1128 feat (val_main_v9 (F := Ideal) e)) : (⟨Cert.KernelIdeal.S100000x128, .f32⟩ : BufTy).Contents (Elt Ideal)) (val_main_v21 (F := Ideal) e) : (⟨Cert.KernelIdeal.S100000x128, .f32⟩ : BufTy).Contents (Elt Ideal))
      = neighbourMean (F := Ideal) feat e := by
  rw [sum_eq]
  unfold val_main_v21 val_main_v20 neighbourMean invDegree
  rw [degree_eq]
  unfold degree
  generalize rawDegree (F := Ideal) e = cnt
  generalize neighbourSum (F := Ideal) feat e = s
  -- the vector of ones, kept as a name with its entries' value
  have hone : ∀ n, (broadcastInDim Cert.KernelIdeal.S100000 ![] Cert.KernelIdeal.Facts₀.bcast_S_S100000 (constant (F := Ideal) Cert.KernelIdeal.S_ .f32 0x3F800000#32)) n
      = Ideal.ofBits .f32 0x3F800000#32 := fun n => rfl
  generalize (broadcastInDim Cert.KernelIdeal.S100000 ![] Cert.KernelIdeal.Facts₀.bcast_S_S100000 (constant (F := Ideal) Cert.KernelIdeal.S_ .f32 0x3F800000#32)) = one at hone ⊢
  funext i
  have hL := column_along_rows_apply (maximumf cnt one) Cert.ReferenceIdeal.Facts₀.bcast_S100000_S100000x1_0 Cert.ReferenceIdeal.Facts₀.bcast_S100000x1_S100000x128_0_1 i
  have hR := column_along_rows_apply (Host.divf one (maximumf cnt one)) Cert.KernelIdeal.Facts₀.bcast_S100000_S100000x1_0 Cert.KernelIdeal.Facts₀.bcast_S100000x1_S100000x128_0_1 i
  rw [hostDivf_apply, mulf_apply, hL, hR, hostDivf_apply, maximumf_apply, hone]
  exact (Sage.scale_by_reciprocal _ _).symm

/-! ## The layers -/

/-- The reference's first layer, positive part taken, is region 0's layer of the kernel side's mean. -/
theorem hidden_eq (x : (⟨Cert.KernelIdeal.S100000x128, .f32⟩ : BufTy).Contents (Elt Ideal)) (e : (⟨Cert.KernelIdeal.S2x640000, .i32⟩ : BufTy).Contents (Elt Ideal))
    (wl wr : (⟨Cert.KernelIdeal.S128x128, .f32⟩ : BufTy).Contents (Elt Ideal)) (b : (⟨Cert.KernelIdeal.S128, .f32⟩ : BufTy).Contents (Elt Ideal)) :
    val_main_v29 (F := Ideal) x e wl wr b
      = Cert.KernelIdeal.Region0.layer (M := 100000) (neighbourMean (F := Ideal) x e) x wl wr
          (shapeCast Cert.KernelIdeal.S1x128 b Cert.KernelIdeal.Facts₀.shapeCasts_S128_S1x128) := by
  unfold val_main_v29 val_main_v28 val_main_v25 val_main_v23 val_main_v24 val_main_v27 val_main_v26 val_main_v22 val_main_v13 val_main_v10
  rw [mean_eq, dot_hidden_plain, Sage.host_affine]
  rfl

/-- The reference's second layer is region 1's layer of the kernel side's mean of the hidden array. -/
theorem out_eq (x : (⟨Cert.KernelIdeal.S100000x128, .f32⟩ : BufTy).Contents (Elt Ideal)) (e : (⟨Cert.KernelIdeal.S2x640000, .i32⟩ : BufTy).Contents (Elt Ideal))
    (wl wr : (⟨Cert.KernelIdeal.S128x128, .f32⟩ : BufTy).Contents (Elt Ideal)) (b : (⟨Cert.KernelIdeal.S128, .f32⟩ : BufTy).Contents (Elt Ideal)) (wl2 wr2 : (⟨Cert.KernelIdeal.S128x16, .f32⟩ : BufTy).Contents (Elt Ideal)) (b2 : (⟨Cert.KernelIdeal.S16, .f32⟩ : BufTy).Contents (Elt Ideal)) :
    val_main_v54 (F := Ideal) x e wl wr b wl2 wr2 b2
      = Cert.KernelIdeal.Region1.layer (M := 100000) (neighbourMean (F := Ideal) (val_main_v29 (F := Ideal) x e wl wr b) e)
          (val_main_v29 (F := Ideal) x e wl wr b) wl2 wr2
          (shapeCast Cert.KernelIdeal.S1x16 b2 Cert.KernelIdeal.Facts₀.shapeCasts_S16_S1x16) := by
  unfold val_main_v54 val_main_v51 val_main_v49 val_main_v50 val_main_v53 val_main_v52 val_main_v48 val_main_v39 val_main_v36
  generalize val_main_v29 (F := Ideal) x e wl wr b = h
  have e37 : val_main_v37 (F := Ideal) = val_main_v11 (F := Ideal) := rfl
  have e38 : val_main_v38 (F := Ideal) e = val_main_v12 (F := Ideal) e := rfl
  have e35 : val_main_v35 (F := Ideal) e = val_main_v9 (F := Ideal) e := rfl
  have e47 : val_main_v47 (F := Ideal) e = val_main_v21 (F := Ideal) e := rfl
  rw [e37, e38, e35, e47, mean_eq, dot_out_plain, Sage.host_affine]
  rfl

end Cert.Bridge

end
-- ==== Proof.lean ====
/-
  Two layers of neighbour-mean graph convolution, the kernel program against the reference.

  Both programs gather the source rows of the features along the edge list, add each into its destination row, and
  count the arriving edges per node with the same host operations. The reference divides the sum by `max(degree, 1)`
  and applies `mean · Wl + x · Wr + b` as two matrix products and a broadcast bias, the positive part after the first
  layer; the kernel program scales the sum by `1 / max(degree, 1)` on the host and computes the products, the bias
  and the positive part in two pipelined regions, ten row blocks of 10000 rows each, with operands narrowed to
  sixteen bits on the way into the products.

  On the extended reals narrowing is the identity, a product accumulated into zero is the finite sum over the
  contracted axis whatever the tiling, and dividing by a number that is at least one is multiplying by its reciprocal,
  at infinite sums too. So the two results are one function of the arguments, entry by entry, and no finiteness of
  the inputs is used. The kernel program's frames are the generated ones; its run with the result buffer named is
  the same launch read once more; the reference's frame is its generated run with the result dropped. The ideal
  pass rewrote nothing, so there is nothing to preserve.
-/
import proofs.«178804_j84885733638151_1_alg».proof.Defs
import proofs.«178804_j84885733638151_1_alg».proof.Proof.Gen.Kernel
import proofs.«178804_j84885733638151_1_alg».proof.Proof.Gen.Kernel.Frame
import proofs.«178804_j84885733638151_1_alg».proof.Proof.Gen.KernelIdeal
import proofs.«178804_j84885733638151_1_alg».proof.Proof.Gen.KernelIdeal.Frame
import proofs.«178804_j84885733638151_1_alg».proof.Proof.Gen.ReferenceIdeal
import proofs.«178804_j84885733638151_1_alg».proof.Proof.Gen.ReferenceIdeal.Run
import proofs.«178804_j84885733638151_1_alg».proof.Proof.Gen.ReferenceIdeal.Read
import proofs.«178804_j84885733638151_1_alg».proof.Proof.Gen.Pre_finite_inputs
import proofs.«178804_j84885733638151_1_alg».proof.Proof.KernelRun
import proofs.«178804_j84885733638151_1_alg».proof.Proof.KernelValue
import proofs.«178804_j84885733638151_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The reference's result term, from arguments that agree with the kernel program's, is the kernel program's
    result: its stages are the kernel side's functions, layer by layer. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v54 (F := Ideal) m' c = Cert.KernelIdeal.Composed.result m c := by
  rw [Cert.ReferenceIdeal.Read.val_main_v54_eq, h0, h1, h2, h3, h4, h5, h6, h7, Cert.Bridge.out_eq, Cert.Bridge.hidden_eq]
  rfl

/-- At the exact instance, from memories agreeing on the arguments, both programs run and end with the same result:
    the kernel program's result buffer at the two layers composed, the reference's at its stages' term, which is
    that function. -/
theorem algebraic : Cert.algebraic_KernelIdeal_ReferenceIdeal := by
  intro m ρ m' ρ' _ hagree
  refine ⟨fun c => Cert.KernelIdeal.Composed.result m c, ?_, ?_⟩
  · exact (θ_run Cert.KernelIdeal.defs _ _).mono (fun _ h c => ⟨(h c).1.trans (Cert.KernelIdeal.Composed.result_eq m ρ c), (h c).2⟩)
      (Cert.KernelIdeal.Run.run_named (F := Ideal) m ρ)
  · exact (θ_run Cert.ReferenceIdeal.defs _ _).mono (fun _ h c => ⟨(h c).1.trans
        (results_agree m m' c (hagree c).1 (hagree c).2.1 (hagree c).2.2.1 (hagree c).2.2.2.1 (hagree c).2.2.2.2.1 (hagree c).2.2.2.2.2.1 (hagree c).2.2.2.2.2.2.1 (hagree c).2.2.2.2.2.2.2), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
